-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S50000x256 : Shape := ⟨2, ![50000, 256]⟩
abbrev S512x256 : Shape := ⟨2, ![512, 256]⟩
abbrev S256x64 : Shape := ⟨2, ![256, 64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x256 : S_.BroadcastsInDim S50000x256 (![] : Fin 0 → Fin S50000x256.rank)
  reducesTo_S50000x256_S_d0_1 : S50000x256.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg6 : FVec F S512x256 .f32) (main_arg7 : FVec F S256x64 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S50000x512 .f32) (main_arg5 : FVec F S50000x256 .f32) (main_arg6 : FVec F S512x256 .f32) (main_arg7 : FVec F S256x64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x512 .f32 := Host.absf main_arg4
  let main_cst_2 : FVec F S_ .f32 := constant S_ .f32 0x7F800000#32
  let main_v10 : FVec F S50000x512 .f32 := broadcastInDim S50000x512 ![] bcast_S_S50000x512 main_cst_2
  let main_v11 : IVec S50000x512 1 := cmpf .olt main_v9 main_v10
  let main_c_3 : IVec S_ 1 := constantI S_ 1 1#1
  let main_v12 : IVec S_ 1 := (fun x v => Host.reduce IntOp.andi x v reducesTo_S50000x512_S_d0_1 h_S_) main_v11 main_c_3
  let main_v13 : IVec S_ 1 := andi main_v8 main_v12
  let main_v14 : FVec F S50000x256 .f32 := Host.absf main_arg5
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S50000x256 : Shape := ⟨2, ![50000, 256]⟩
abbrev S512x256 : Shape := ⟨2, ![512, 256]⟩
abbrev S256x64 : Shape := ⟨2, ![256, 64]⟩
abbrev S2000x512 : Shape := ⟨2, ![2000, 512]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S50000x64 : Shape := ⟨2, ![50000, 64]⟩
abbrev S2000x64 : Shape := ⟨2, ![2000, 64]⟩
abbrev S800000x64 : Shape := ⟨2, ![800000, 64]⟩

abbrev nBuf : Space → Nat
  | .hbm => 42
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000x512, .f32⟩
  | .hbm, ⟨5, _⟩ => ⟨S50000x256, .f32⟩
  | .hbm, ⟨6, _⟩ => ⟨S512x256, .f32⟩
  | .hbm, ⟨7, _⟩ => ⟨S256x64, .f32⟩
  | .hbm, ⟨8, _⟩ => ⟨S50000x256, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S50000x64, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S256x64, .f32⟩
  | .local _ .vmem, ⟨12, _⟩ => ⟨S2000x64, .f32⟩
  | .local _ .vmem, ⟨13, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S50000x512.size a
  hwx0_1 : ∀ i : grid0.Coords, EltTy.bits .f32 = 32 ∨ (Rect.block (s := S50000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S50000x256 : Shape := ⟨2, ![50000, 256]⟩
abbrev S512x256 : Shape := ⟨2, ![512, 256]⟩
abbrev S256x64 : Shape := ⟨2, ![256, 64]⟩
abbrev S_ : Shape := ⟨0, ![]⟩
abbrev S800000x1 : Shape := ⟨2, ![800000, 1]⟩
abbrev S800000x256 : Shape := ⟨2, ![800000, 256]⟩
abbrev S50000x64 : Shape := ⟨2, ![50000, 64]⟩
abbrev S800000x64 : Shape := ⟨2, ![800000, 64]⟩

abbrev nBuf : Space → Nat
  | .hbm => 65
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000x512, .f32⟩
  | .hbm, ⟨5, _⟩ => ⟨S50000x256, .f32⟩
  | .hbm, ⟨6, _⟩ => ⟨S512x256, .f32⟩
  | .hbm, ⟨7, _⟩ => ⟨S256x64, .f32⟩
  | .hbm, ⟨8, _⟩ => ⟨S_, .f32⟩
  | .hbm, ⟨9, _⟩ => ⟨S50000x512, .f32⟩
  | .hbm, ⟨10, _⟩ => ⟨S50000x512, .i1⟩
  | .hbm, ⟨11, _⟩ => ⟨S_, .f32⟩
  | .hbm, ⟨12, _⟩ => ⟨S50000x512, .f32⟩
  | .hbm, ⟨13, _⟩ => ⟨S50000x512, .f32⟩
  | .hbm, ⟨14, _⟩ => ⟨S_, .f32⟩
  | .hbm, ⟨15, _⟩ => ⟨S_, .f32⟩
  | .hbm, ⟨16, _⟩ => ⟨S50000x512, .f32⟩
  | .hbm, ⟨17, _⟩ => ⟨S50000x512, .f32⟩
  | .hbm, ⟨18, _⟩ => ⟨S50000x256, .f32⟩
  | .hbm, ⟨19, _⟩ => ⟨S800000x1, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x256, .f32⟩
  | .hbm, ⟨29, _⟩ => ⟨S800000x256, .f32⟩
  | .hbm, ⟨30, _⟩ => ⟨S800000x256, .f32⟩
  | .hbm, ⟨31, _⟩ => ⟨S_, .f32⟩
  | .hbm, ⟨32, _⟩ => ⟨S50000x256, .f32⟩
  | .hbm, ⟨33, _⟩ => ⟨S800000x1, .i32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .i1⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S50000x64, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S800000x64, .f32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_cst : Ref sig .tc := ⟨.hbm, 35, rfl⟩
abbrev main_call1_v0 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_call2_v0 : Ref sig .tc := ⟨.hbm, 45, rfl⟩
abbrev main_call2_v1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩

abbrev nD : Nat := 1
abbrev τ : Topo := Topo.v7x

variable {F : FTy → Type} [FloatOps F]

class Facts₀ : Prop where
  bcast_S_S50000x512 : S_.BroadcastsInDim S50000x512 (![] : Fin 0 → Fin S50000x512.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Dropout.lean ====
/-
  The one scalar function both programs apply entry by entry before each matrix product: inverted dropout with the
  noise given. An entry `a` whose noise `u` is at least one half is kept and doubled; any other entry becomes zero.
-/
import Idealize.ShloMosaic.PureOps

noncomputable section

namespace Cert.Dropout

open Idealize.ShloMosaic

variable {F : FTy → Type} [FloatOps F]

/-- `a · 2` where the noise `u` is at least `1/2`, zero elsewhere (the three constants as their f32 patterns). -/
def keepScaled (u a : F .f32) : F .f32 :=
  Scalar.select (FloatOps.cmpf .oge u (FloatOps.ofBits .f32 0x3F000000#32))
    (FloatOps.mulf a (FloatOps.ofBits .f32 0x40000000#32)) (FloatOps.ofBits .f32 0x00000000#32)

end Cert.Dropout

end
-- ==== Proof.KernelPayload.lean ====
/-
  What each kernel body stores, read at an index of its block, at the ideal values.

  Region 0 multiplies the dropped-out block of `x` into `W1`: entry `(r, q)` of the stored block is
  `Σ k, keepScaled (u (r, k)) (x (r, k)) · w (k, q)` (the two roundings to bf16 are the identity on extended reals, and
  the matrix product into the zero accumulator is the plain sum over the contracted axis).
  Region 1 does the same after clamping its input block below at zero (the reshape of the block to its own shape is
  the identity): `Σ k, keepScaled (u (r, k)) (max (h (r, k)) 0) · w (k, q)`.
-/
import proofs.«108097_j54271206752667_1_alg».proof.Proof.Gen.KernelIdeal.Skeleton
import proofs.«108097_j54271206752667_1_alg».proof.Proof.LibRowOps
import proofs.«108097_j54271206752667_1_alg».proof.Proof.Dropout
import Idealize.ShloMosaic.Lib.Pipeline.Value

noncomputable section

namespace Cert.KernelIdeal.Hand

open Cert.KernelIdeal Cert.KernelIdeal.Gen Idealize.ShloMosaic Idealize.ShloMosaic.ValueIdx Cert.Dropout
open Facts₀ Facts

/-- The origin of a rank-2 buffer, as the constant function the whole-buffer access lemmas ask for. -/
theorem origin2 : (![0, 0] : Fin 2 → Nat) = fun _ => 0 := funext fun a => by fin_cases a <;> rfl

/-- Region 0's stored block at `(r, q)`. -/
theorem pay0_apply (ub xb : Vec Ideal S2000x512 .f32) (wb : Vec Ideal S512x256 .f32) (r : Fin 2000) (q : Fin 256) :
    k0_pay1 (F := Ideal) ub xb wb (ix2 r q)
      = ∑ k : Fin 512, keepScaled (F := Ideal) (ub (ix2 r k)) (xb (ix2 r k)) * wb (ix2 k q) := by
  unfold k0_pay1
  exact Cert.RowOps.matmul_apply (φ₁ := .bf16) (φ₂ := .bf16) Facts₀.dot_S2000x512_S512x256_S2000x256_1_0_0_1_n_n_wf none
    (fun i => keepScaled (F := Ideal) (ub i) (xb i)) wb r q

/-- Region 1's stored block at `(r, q)`. -/
theorem pay1_apply (hb ub : Vec Ideal S2000x256 .f32) (wb : Vec Ideal S256x64 .f32) (r : Fin 2000) (q : Fin 64) :
    k1_pay1 (F := Ideal) hb ub wb (ix2 r q)
      = ∑ k : Fin 256, keepScaled (F := Ideal) (ub (ix2 r k)) (max (hb (ix2 r k)) (Ideal.ofBits .f32 0x00000000#32)) * wb (ix2 k q) := by
  unfold k1_pay1
  rw [shapeCast_self]
  exact Cert.RowOps.matmul_apply (φ₁ := .bf16) (φ₂ := .bf16) Facts₀.dot_S2000x256_S256x64_S2000x64_1_0_0_1_n_n_wf none
    (fun i => keepScaled (F := Ideal) (ub i) (max (hb i) (Ideal.ofBits .f32 0x00000000#32))) wb r q

end Cert.KernelIdeal.Hand

end
-- ==== Proof.LibHostOps.lean ====
/-
  General lemmas: operations of a host program read at an index, at the ideal instance.

  * a rank-0 operand broadcast to any shape reads, everywhere, the operand's one entry;
  * a plain host matrix product `[M,K]·[K,N]`, at `(p, c)`, is `Σ k, lhs (p, k) · rhs (k, c)`;
  * the f32 patterns of one half and of two, and the law that joins them: on the extended reals a
    quotient by one half is the product with two (the divisor is a nonzero real, so no corner of the
    extended quotient is met, whatever the dividend).
-/
import Idealize.ShloMosaic.PureOps.Ideal.Laws
import Idealize.ShloMosaic.Lib.ValueIdx
import Idealize.ShloMosaic.Lib.Pipeline.Value

noncomputable section

namespace Cert.HostOps

open Idealize.ShloMosaic Idealize.ShloMosaic.ValueIdx

variable {α : Type}

/-- A rank-0 operand broadcast to the shape `t` reads its one entry at every index of `t`. -/
theorem bcastScalar_apply {t : Shape} (h : (⟨0, ![]⟩ : Shape).BroadcastsInDim t (![] : Fin 0 → Fin t.rank))
    (v : (⟨0, ![]⟩ : Shape).Idx → α) (j : t.Idx) : broadcastInDim t ![] h v j = v ix0 :=
  broadcastInDim_apply _ h v j ix0 (fun a => a.elim0)

/-- A plain host matrix product `[M,K]·[K,N]` (the left operand's columns contracted with the right operand's rows),
    read at `(p, c)`: the sum over `k` of `lhs (p, k) · rhs (k, c)`. -/
theorem hostDot_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    Host.dotGeneral (⟨[1], [0], [0], [1], [], [], wf⟩ : DotDims ⟨2, ![M, K]⟩ ⟨2, ![K, N]⟩ ⟨2, ![M, N]⟩) prec lhs rhs (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  simp only [Host.dotGeneral]
  rw [Ideal.dotGeneral_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

/-- The f32 pattern of one half denotes the real `1/2`. -/
theorem ofBits_half : Ideal.ofBits .f32 0x3F000000#32 = ((1 / 2 : ℝ) : EReal) := by
  simp [Ideal.ofBits, Ideal.ieee, -EReal.coe_mul]; norm_num

/-- The f32 pattern of two denotes the real `2`. -/
theorem ofBits_two : Ideal.ofBits .f32 0x40000000#32 = ((2 : ℝ) : EReal) := by
  simp [Ideal.ofBits, Ideal.ieee, -EReal.coe_mul]; norm_num

/-- On the extended reals the quotient by one half is the product with two, for EVERY dividend: the divisor is a nonzero
    real, so the quotient is the product with its inverse. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

end Cert.HostOps

end
-- ==== Proof.RefLayers.lean ====
/-
  The reference's two dense layers and its two sparse products, each as ONE function of its operands, and each dense
  layer read at an index at the ideal values.

  `layer1 x u w` is `where(u ≥ 1/2, x / (1/2), 0) @ w`; `layer2 h u w` is `where(u ≥ 1/2, max(h, 0) / (1/2), 0) @ w`.
  At `(p, q)` each is `Σ k, keepScaled (u (p, k)) (· (p, k)) · w (k, q)`: the host's matrix product is the plain sum over the
  contracted axis, the broadcast scalars read their one entry, and the quotient by one half is the product with two.
  `spmm256` and `spmm64` are the COO product's host operations (index wrap-around, row gather, scaling by the edge value,
  accumulating scatter into zeros) kept closed: both programs apply exactly these to equal operands, so they are never opened.
-/
import proofs.«108097_j54271206752667_1_alg».proof.ReferenceIdeal
import proofs.«108097_j54271206752667_1_alg».proof.Proof.LibHostOps
import proofs.«108097_j54271206752667_1_alg».proof.Proof.Dropout

noncomputable section

namespace Cert.ReferenceIdeal.Hand

open Cert.ReferenceIdeal Idealize.ShloMosaic Idealize.ShloMosaic.ValueIdx Cert.Dropout Cert.HostOps

variable {F : FTy → Type} [FloatOps F] [Cert.ReferenceIdeal.Facts]
open Facts₀ Facts

/-- The first dense layer: dropout of `x` by the noise `u`, then the product with `w`. -/
def layer1 (x u : (⟨S50000x512, .f32⟩ : BufTy).Contents (Elt F)) (w : (⟨S512x256, .f32⟩ : BufTy).Contents (Elt F)) :
    (⟨S50000x256, .f32⟩ : BufTy).Contents (Elt F) :=
  Host.dotGeneral dot_S50000x512_S512x256_S50000x256_1_0_0_1_n_n none
    (select (cmpf .oge u (broadcastInDim S50000x512 ![] bcast_S_S50000x512 (constant S_ .f32 0x3F000000#32)))
      (Host.divf x (broadcastInDim S50000x512 ![] bcast_S_S50000x512 (constant S_ .f32 0x3F000000#32)))
      (broadcastInDim S50000x512 ![] bcast_S_S50000x512 (id (constant S_ .f32 0x00000000#32)))) w

/-- The second dense layer: the clamp below at zero, dropout by the noise `u`, then the product with `w`. -/
def layer2 (h u : (⟨S50000x256, .f32⟩ : BufTy).Contents (Elt F)) (w : (⟨S256x64, .f32⟩ : BufTy).Contents (Elt F)) :
    (⟨S50000x64, .f32⟩ : BufTy).Contents (Elt F) :=
  Host.dotGeneral dot_S50000x256_S256x64_S50000x64_1_0_0_1_n_n none
    (select (cmpf .oge u (broadcastInDim S50000x256 ![] bcast_S_S50000x256 (constant S_ .f32 0x3F000000#32)))
      (Host.divf (maximumf h (broadcastInDim S50000x256 ![] bcast_S_S50000x256 (constant S_ .f32 0x00000000#32)))
        (broadcastInDim S50000x256 ![] bcast_S_S50000x256 (constant S_ .f32 0x3F000000#32)))
      (broadcastInDim S50000x256 ![] bcast_S_S50000x256 (id (constant S_ .f32 0x00000000#32)))) w

/-- The sparse product with the 256-column operand `d`: row `col e` of `d` (a negative index wrapped once) scaled by
    `vals e`, accumulated into row `row e` of a zero array. -/
def spmm256 (row col : (⟨S800000, .i32⟩ : BufTy).Contents (Elt F)) (vals : (⟨S800000, .f32⟩ : BufTy).Contents (Elt F))
    (d : (⟨S50000x256, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 row)
    (mulf (broadcastInDim S800000x256 ![0, 1] bcast_S800000x1_S800000x256_0_1 (broadcastInDim S800000x1 ![0] bcast_S800000_S800000x1_0 vals))
      (Host.gather gather_S50000x256_S800000x1_S800000x256_1_0_n_n_0_1_1256 d
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The sparse product with the 64-column operand `d`. -/
def spmm64 (row col : (⟨S800000, .i32⟩ : BufTy).Contents (Elt F)) (vals : (⟨S800000, .f32⟩ : BufTy).Contents (Elt F))
    (d : (⟨S50000x64, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 row)
    (mulf (broadcastInDim S800000x64 ![0, 1] bcast_S800000x1_S800000x64_0_1 (broadcastInDim S800000x1 ![0] bcast_S800000_S800000x1_0 vals))
      (Host.gather gather_S50000x64_S800000x1_S800000x64_1_0_n_n_0_1_164 d
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The whole reference: the sparse product of the second layer of the sparse product of the first layer. -/
def network (x : (⟨S50000x512, .f32⟩ : BufTy).Contents (Elt F)) (row col : (⟨S800000, .i32⟩ : BufTy).Contents (Elt F))
    (vals : (⟨S800000, .f32⟩ : BufTy).Contents (Elt F)) (u1 : (⟨S50000x512, .f32⟩ : BufTy).Contents (Elt F))
    (u2 : (⟨S50000x256, .f32⟩ : BufTy).Contents (Elt F)) (w1 : (⟨S512x256, .f32⟩ : BufTy).Contents (Elt F))
    (w2 : (⟨S256x64, .f32⟩ : BufTy).Contents (Elt F)) : (⟨S50000x64, .f32⟩ : BufTy).Contents (Elt F) :=
  spmm64 row col vals (layer2 (spmm256 row col vals (layer1 x u1 w1)) u2 w2)

/-- The first layer at `(p, q)`. -/
theorem layer1_apply (x u : (⟨S50000x512, .f32⟩ : BufTy).Contents (Elt Ideal)) (w : (⟨S512x256, .f32⟩ : BufTy).Contents (Elt Ideal))
    (p : Fin 50000) (q : Fin 256) :
    layer1 (F := Ideal) x u w (ix2 p q) = ∑ k : Fin 512, keepScaled (F := Ideal) (u (ix2 p k)) (x (ix2 p k)) * w (ix2 k q) := by
  unfold layer1
  refine (hostDot_apply Facts₀.dot_S50000x512_S512x256_S50000x256_1_0_0_1_n_n_wf none _ w p q).trans ?_
  refine Finset.sum_congr rfl fun k _ => congrArg (· * w (ix2 k q)) ?_
  show Scalar.select (FloatOps.cmpf .oge (u (ix2 p k)) (broadcastInDim S50000x512 ![] bcast_S_S50000x512 (constant (F := Ideal) S_ .f32 0x3F000000#32) (ix2 p k)))
      (Ideal.div (x (ix2 p k)) (broadcastInDim S50000x512 ![] bcast_S_S50000x512 (constant (F := Ideal) S_ .f32 0x3F000000#32) (ix2 p k)))
      (broadcastInDim S50000x512 ![] bcast_S_S50000x512 (id (constant (F := Ideal) S_ .f32 0x00000000#32)) (ix2 p k)) = _
  rw [bcastScalar_apply, bcastScalar_apply]
  show Scalar.select (FloatOps.cmpf .oge (u (ix2 p k)) (Ideal.ofBits .f32 0x3F000000#32))
      (Ideal.div (x (ix2 p k)) (Ideal.ofBits .f32 0x3F000000#32)) (Ideal.ofBits .f32 0x00000000#32) = _
  rw [div_half]
  rfl

/-- The second layer at `(p, q)`. -/
theorem layer2_apply (h u : (⟨S50000x256, .f32⟩ : BufTy).Contents (Elt Ideal)) (w : (⟨S256x64, .f32⟩ : BufTy).Contents (Elt Ideal))
    (p : Fin 50000) (q : Fin 64) :
    layer2 (F := Ideal) h u w (ix2 p q)
      = ∑ k : Fin 256, keepScaled (F := Ideal) (u (ix2 p k)) (max (h (ix2 p k)) (Ideal.ofBits .f32 0x00000000#32)) * w (ix2 k q) := by
  unfold layer2
  refine (hostDot_apply Facts₀.dot_S50000x256_S256x64_S50000x64_1_0_0_1_n_n_wf none _ w p q).trans ?_
  refine Finset.sum_congr rfl fun k _ => congrArg (· * w (ix2 k q)) ?_
  show Scalar.select (FloatOps.cmpf .oge (u (ix2 p k)) (broadcastInDim S50000x256 ![] bcast_S_S50000x256 (constant (F := Ideal) S_ .f32 0x3F000000#32) (ix2 p k)))
      (Ideal.div (max (h (ix2 p k)) (broadcastInDim S50000x256 ![] bcast_S_S50000x256 (constant (F := Ideal) S_ .f32 0x00000000#32) (ix2 p k)))
        (broadcastInDim S50000x256 ![] bcast_S_S50000x256 (constant (F := Ideal) S_ .f32 0x3F000000#32) (ix2 p k)))
      (broadcastInDim S50000x256 ![] bcast_S_S50000x256 (id (constant (F := Ideal) S_ .f32 0x00000000#32)) (ix2 p k)) = _
  rw [bcastScalar_apply, bcastScalar_apply, bcastScalar_apply]
  show Scalar.select (FloatOps.cmpf .oge (u (ix2 p k)) (Ideal.ofBits .f32 0x3F000000#32))
      (Ideal.div (max (h (ix2 p k)) (Ideal.ofBits .f32 0x00000000#32)) (Ideal.ofBits .f32 0x3F000000#32)) (Ideal.ofBits .f32 0x00000000#32) = _
  rw [div_half]
  rfl

end Cert.ReferenceIdeal.Hand

end
-- ==== Proof.Region0.lean ====
/-
  What the first kernel region leaves in its output array, as one function of the arrays it is entered with, at the ideal values.

  The region's 25 grid points move a block of 2000 rows each: point `t` reads rows `2000·t … 2000·t + 1999` of `x` and of the
  noise and the whole weight matrix, and writes back the same rows of the output. Row `2000·t + r` of the output therefore
  holds, in column `q`, `Σ k, keepScaled (u (2000·t + r, k)) (x (2000·t + r, k)) · w (k, q)`, which is the reference's first
  layer there; the 25 blocks tile the 50000 rows, so the whole output array is the reference's first layer.
-/
import proofs.«108097_j54271206752667_1_alg».proof.Proof.Gen.KernelIdeal.Frame
import proofs.«108097_j54271206752667_1_alg».proof.Proof.Gen.ReferenceIdeal
import proofs.«108097_j54271206752667_1_alg».proof.Proof.KernelPayload
import proofs.«108097_j54271206752667_1_alg».proof.Proof.RefLayers
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Dropout

variable (V : (c : Dev nD) → (b : Ref sig .tc) → Buf (Elt Ideal) ((c : Thread nD τ).loc b))

/-- Region 0's index maps over its grid: the three row-blocked windows sit at block row `t`, the weight at block `(0, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 25 := lt_of_lt_of_eq t.isLt N_0

/-- The block of `x` at point `t` is rows `2000·t …` of the array. -/
theorem iblk0_0_apply (c : Dev nD) (t : Fin cfg0.N) (r : Fin 2000) (k : Fin 512) (p : Fin 50000) (hp : p.val = 2000 * t.val + r.val) :
    (iblk0 V c 0 t : Vec Ideal S2000x512 .f32) (ix2 r k) = (V c main_arg0 : S50000x512.Idx → EReal) (ix2 p k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * r.val = p.val; rw [e0, hp]; omega
  | ⟨1, _⟩ => show win0_0.index t 1 * 512 + 1 * k.val = k.val; rw [e1]; omega

/-- The block of the noise at point `t`: the same rows of its array. -/
theorem iblk0_1_apply (c : Dev nD) (t : Fin cfg0.N) (r : Fin 2000) (k : Fin 512) (p : Fin 50000) (hp : p.val = 2000 * t.val + r.val) :
    (iblk0 V c 1 t : Vec Ideal S2000x512 .f32) (ix2 r k) = (V c main_arg4 : S50000x512.Idx → EReal) (ix2 p k) := by
  obtain ⟨-, -, e0, e1, -⟩ := idx0 t
  unfold iblk0
  rw [View.read_apply]
  show V c main_arg4 _ = V c main_arg4 _
  congr 1
  funext a
  apply Fin.ext
  match a with
  | ⟨0, _⟩ => show win0_1.index t 0 * 2000 + 1 * r.val = p.val; rw [e0, hp]; omega
  | ⟨1, _⟩ => show win0_1.index t 1 * 512 + 1 * k.val = k.val; rw [e1]; omega

/-- The weight's block at every point is the whole weight. -/
theorem iblk0_2_apply (c : Dev nD) (t : Fin cfg0.N) (k : Fin 512) (q : Fin 256) :
    (iblk0 V c 2 t : Vec Ideal S512x256 .f32) (ix2 k q) = (V c main_arg6 : S512x256.Idx → EReal) (ix2 k q) := by
  obtain ⟨-, -, -, -, e0, e1, -⟩ := idx0 t
  unfold iblk0
  rw [View.read_apply]
  show V c main_arg6 _ = V c main_arg6 _
  congr 1
  funext a
  apply Fin.ext
  match a with
  | ⟨0, _⟩ => show win0_2.index t 0 * 512 + 1 * k.val = k.val; rw [e0]; omega
  | ⟨1, _⟩ => show win0_2.index t 1 * 256 + 1 * q.val = q.val; rw [e1]; omega

/-- One point of region 0 over plain arrays: blocks that are rows `p` of `X`, `U` and all of `W` give the reference layer's row `p`. -/
theorem point0 (X U : (⟨Cert.ReferenceIdeal.S50000x512, .f32⟩ : BufTy).Contents (Elt Ideal))
    (W : (⟨Cert.ReferenceIdeal.S512x256, .f32⟩ : BufTy).Contents (Elt Ideal))
    (xb ub : Vec Ideal S2000x512 .f32) (wb : Vec Ideal S512x256 .f32) (r : Fin 2000) (q : Fin 256) (p : Fin 50000)
    (hx : ∀ k : Fin 512, xb (ix2 r k) = X (ix2 p k)) (hu : ∀ k : Fin 512, ub (ix2 r k) = U (ix2 p k))
    (hw : ∀ k : Fin 512, wb (ix2 k q) = W (ix2 k q)) :
    k0_pay1 (F := Ideal) ub xb wb (ix2 r q) = Cert.ReferenceIdeal.Hand.layer1 (F := Ideal) X U W (ix2 p q) := by
  rw [pay0_apply, Cert.ReferenceIdeal.Hand.layer1_apply]
  exact Finset.sum_congr rfl fun k _ => by rw [hx k, hu k, hw k]

/-- What point `t` of region 0 writes back is block `t` of the reference's first layer of the region's entry arrays. -/
theorem flushed0 (c : Dev nD) (t : Fin cfg0.N) :
    (dat0 V c).flushed 3 t = ((cfg0.win 3).blk t).view.read (Elt Ideal)
      (Cert.ReferenceIdeal.Hand.layer1 (F := Ideal) (V c main_arg0) (V c main_arg4) (V c main_arg6)) := by
  show (cfg0.win 3).cut (grid0.coords t) ((dat0 V c).after 3 t) = _
  rw [after0_3]
  unfold out0_3
  rw [View.canon_unit_zero origin2]
  simp only [View.ld_unit_zero (S := S2000x512) origin2, View.ld_unit_zero (S := S512x256) origin2]
  obtain ⟨-, -, -, -, -, -, e6, e7⟩ := idx0 t
  funext j
  have h0 : (j 0).val < 2000 := (j 0).isLt
  have h1 : (j 1).val < 256 := (j 1).isLt
  have ht := lt0 t
  show k0_pay1 (F := Ideal) (iblk0 V c 1 t) (iblk0 V c 0 t) (iblk0 V c 2 t) j
    = Cert.ReferenceIdeal.Hand.layer1 (F := Ideal) (V c main_arg0) (V c main_arg4) (V c main_arg6) (((cfg0.win 3).blk t).view.emb j)
  have hj : (j : S2000x256.Idx) = ix2 (⟨(j 0).val, h0⟩ : Fin 2000) (⟨(j 1).val, h1⟩ : Fin 256) :=
    funext fun a => by match a with | ⟨0, _⟩ => rfl | ⟨1, _⟩ => rfl
  have hemb : (((cfg0.win 3).blk t).view.emb j : S50000x256.Idx)
      = ix2 (⟨2000 * t.val + (j 0).val, by omega⟩ : Fin 50000) (⟨(j 1).val, h1⟩ : Fin 256) := funext fun a => Fin.ext (by
    match a with
    | ⟨0, _⟩ => show win0_3.index t 0 * 2000 + 1 * (j 0).val = 2000 * t.val + (j 0).val; rw [e6]; omega
    | ⟨1, _⟩ => show win0_3.index t 1 * 256 + 1 * (j 1).val = (j 1).val; rw [e7]; omega)
  refine ((congrArg (k0_pay1 (F := Ideal) (iblk0 V c 1 t) (iblk0 V c 0 t) (iblk0 V c 2 t)) hj).trans ?_).trans
    (congrArg (Cert.ReferenceIdeal.Hand.layer1 (F := Ideal) (V c main_arg0) (V c main_arg4) (V c main_arg6)) hemb).symm
  exact point0 (V c main_arg0) (V c main_arg4) (V c main_arg6) (iblk0 V c 0 t) (iblk0 V c 1 t) (iblk0 V c 2 t)
    ⟨(j 0).val, h0⟩ ⟨(j 1).val, h1⟩ ⟨2000 * t.val + (j 0).val, by omega⟩
    (fun k => iblk0_0_apply V c t ⟨(j 0).val, h0⟩ k ⟨2000 * t.val + (j 0).val, by omega⟩ rfl)
    (fun k => iblk0_1_apply V c t ⟨(j 0).val, h0⟩ k ⟨2000 * t.val + (j 0).val, by omega⟩ rfl)
    (fun k => iblk0_2_apply V c t k ⟨(j 1).val, h1⟩)

/-- Region 0's output array after the region: the reference's first layer of the region's entry arrays (the 25 row blocks
    tile the 50000 rows: row `i` lies in block `i / 2000`). -/
theorem final0 (c : Dev nD) : (dat0 V c).arrAt 3 cfg0.N
    = Cert.ReferenceIdeal.Hand.layer1 (F := Ideal) (V c main_arg0) (V c main_arg4) (V c main_arg6) :=
  (dat0 V c).arrAt_eq_of_cover 3 _ (fun t _ => flushed0 V c t) fun i => by
    have hi0 : (i 0).val < 50000 := (i 0).isLt
    have hi1 : (i 1).val < 256 := (i 1).isLt
    have hN : cfg0.N = 25 := N_0
    obtain ⟨t, ht⟩ : ∃ t : Fin cfg0.N, t.val = (i 0).val / 2000 := ⟨⟨(i 0).val / 2000, by rw [hN]; omega⟩, rfl⟩
    refine ⟨t, flush0_3 t, ?_⟩
    obtain ⟨-, -, -, -, -, -, e6, e7⟩ := idx0 t
    show i ∈ ((View.whole main_v0).slice (win0_3.rect t)).set
    rw [View.set_slice_whole, Rect.mem_set_unit]
    intro a
    match a with
    | ⟨0, _⟩ =>
      show win0_3.index t 0 * 2000 ≤ (i 0).val ∧ (i 0).val < win0_3.index t 0 * 2000 + 2000
      rw [e6, ht]; omega
    | ⟨1, _⟩ =>
      show win0_3.index t 1 * 256 ≤ (i 1).val ∧ (i 1).val < win0_3.index t 1 * 256 + 256
      rw [e7]; omega

end Cert.KernelIdeal.Hand

end
-- ==== Proof.Region1.lean ====
/-
  What the second kernel region leaves in its output array, as one function of the arrays it is entered with, at the ideal values.

  Again 25 grid points of 2000 rows each: point `t` reads rows `2000·t … 2000·t + 1999` of the hidden array `h` and of its
  noise and the whole second weight matrix, and writes back the same rows of the output. Row `2000·t + r` of the output holds, in
  column `q`, `Σ k, keepScaled (u (2000·t + r, k)) (max (h (2000·t + r, k)) 0) · w (k, q)`: the reference's second layer there;
  the blocks tile the rows, so the whole output array is the reference's second layer.
-/
import proofs.«108097_j54271206752667_1_alg».proof.Proof.Gen.KernelIdeal.Frame
import proofs.«108097_j54271206752667_1_alg».proof.Proof.Gen.ReferenceIdeal
import proofs.«108097_j54271206752667_1_alg».proof.Proof.KernelPayload
import proofs.«108097_j54271206752667_1_alg».proof.Proof.RefLayers
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Dropout

variable (V : (c : Dev nD) → (b : Ref sig .tc) → Buf (Elt Ideal) ((c : Thread nD τ).loc b))

/-- Region 1's index maps over its grid: the three row-blocked windows sit at block row `t`, the weight at block `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 25 := lt_of_lt_of_eq t.isLt N_1

/-- The block of the hidden array at point `t` is rows `2000·t …` of the array. -/
theorem iblk1_0_apply (c : Dev nD) (t : Fin cfg1.N) (r : Fin 2000) (k : Fin 256) (p : Fin 50000) (hp : p.val = 2000 * t.val + r.val) :
    (iblk1 V c 0 t : Vec Ideal S2000x256 .f32) (ix2 r k) = (V c main_v13 : S50000x256.Idx → EReal) (ix2 p k) := by
  obtain ⟨e0, e1, -⟩ := idx1 t
  unfold iblk1
  rw [View.read_apply]
  show V c main_v13 _ = V c main_v13 _
  congr 1
  funext a
  apply Fin.ext
  match a with
  | ⟨0, _⟩ => show win1_0.index t 0 * 2000 + 1 * r.val = p.val; rw [e0, hp]; omega
  | ⟨1, _⟩ => show win1_0.index t 1 * 256 + 1 * k.val = k.val; rw [e1]; omega

/-- The block of the noise at point `t`: the same rows of its array. -/
theorem iblk1_1_apply (c : Dev nD) (t : Fin cfg1.N) (r : Fin 2000) (k : Fin 256) (p : Fin 50000) (hp : p.val = 2000 * t.val + r.val) :
    (iblk1 V c 1 t : Vec Ideal S2000x256 .f32) (ix2 r k) = (V c main_arg5 : S50000x256.Idx → EReal) (ix2 p k) := by
  obtain ⟨-, -, e0, e1, -⟩ := idx1 t
  unfold iblk1
  rw [View.read_apply]
  show V c main_arg5 _ = V c main_arg5 _
  congr 1
  funext a
  apply Fin.ext
  match a with
  | ⟨0, _⟩ => show win1_1.index t 0 * 2000 + 1 * r.val = p.val; rw [e0, hp]; omega
  | ⟨1, _⟩ => show win1_1.index t 1 * 256 + 1 * k.val = k.val; rw [e1]; omega

/-- The weight's block at every point is the whole weight. -/
theorem iblk1_2_apply (c : Dev nD) (t : Fin cfg1.N) (k : Fin 256) (q : Fin 64) :
    (iblk1 V c 2 t : Vec Ideal S256x64 .f32) (ix2 k q) = (V c main_arg7 : S256x64.Idx → EReal) (ix2 k q) := by
  obtain ⟨-, -, -, -, e0, e1, -⟩ := idx1 t
  unfold iblk1
  rw [View.read_apply]
  show V c main_arg7 _ = V c main_arg7 _
  congr 1
  funext a
  apply Fin.ext
  match a with
  | ⟨0, _⟩ => show win1_2.index t 0 * 256 + 1 * k.val = k.val; rw [e0]; omega
  | ⟨1, _⟩ => show win1_2.index t 1 * 64 + 1 * q.val = q.val; rw [e1]; omega

/-- One point of region 1 over plain arrays: blocks that are rows `p` of `H`, `U` and all of `W` give the reference's second
    layer's row `p`. -/
theorem point1 (H U : (⟨Cert.ReferenceIdeal.S50000x256, .f32⟩ : BufTy).Contents (Elt Ideal))
    (W : (⟨Cert.ReferenceIdeal.S256x64, .f32⟩ : BufTy).Contents (Elt Ideal))
    (hb ub : Vec Ideal S2000x256 .f32) (wb : Vec Ideal S256x64 .f32) (r : Fin 2000) (q : Fin 64) (p : Fin 50000)
    (hh : ∀ k : Fin 256, hb (ix2 r k) = H (ix2 p k)) (hu : ∀ k : Fin 256, ub (ix2 r k) = U (ix2 p k))
    (hw : ∀ k : Fin 256, wb (ix2 k q) = W (ix2 k q)) :
    k1_pay1 (F := Ideal) hb ub wb (ix2 r q) = Cert.ReferenceIdeal.Hand.layer2 (F := Ideal) H U W (ix2 p q) := by
  rw [pay1_apply, Cert.ReferenceIdeal.Hand.layer2_apply]
  exact Finset.sum_congr rfl fun k _ => by rw [hh k, hu k, hw k]

/-- What point `t` of region 1 writes back is block `t` of the reference's second layer of the region's entry arrays. -/
theorem flushed1 (c : Dev nD) (t : Fin cfg1.N) :
    (dat1 V c).flushed 3 t = ((cfg1.win 3).blk t).view.read (Elt Ideal)
      (Cert.ReferenceIdeal.Hand.layer2 (F := Ideal) (V c main_v13) (V c main_arg5) (V c main_arg7)) := by
  show (cfg1.win 3).cut (grid1.coords t) ((dat1 V c).after 3 t) = _
  rw [after1_3]
  unfold out1_3
  rw [View.canon_unit_zero origin2]
  simp only [View.ld_unit_zero (S := S2000x256) origin2, View.ld_unit_zero (S := S256x64) origin2]
  obtain ⟨-, -, -, -, -, -, e6, e7⟩ := idx1 t
  funext j
  have h0 : (j 0).val < 2000 := (j 0).isLt
  have h1 : (j 1).val < 64 := (j 1).isLt
  have ht := lt1 t
  show k1_pay1 (F := Ideal) (iblk1 V c 0 t) (iblk1 V c 1 t) (iblk1 V c 2 t) j
    = Cert.ReferenceIdeal.Hand.layer2 (F := Ideal) (V c main_v13) (V c main_arg5) (V c main_arg7) (((cfg1.win 3).blk t).view.emb j)
  have hj : (j : S2000x64.Idx) = ix2 (⟨(j 0).val, h0⟩ : Fin 2000) (⟨(j 1).val, h1⟩ : Fin 64) :=
    funext fun a => by match a with | ⟨0, _⟩ => rfl | ⟨1, _⟩ => rfl
  have hemb : (((cfg1.win 3).blk t).view.emb j : S50000x64.Idx)
      = ix2 (⟨2000 * t.val + (j 0).val, by omega⟩ : Fin 50000) (⟨(j 1).val, h1⟩ : Fin 64) := funext fun a => Fin.ext (by
    match a with
    | ⟨0, _⟩ => show win1_3.index t 0 * 2000 + 1 * (j 0).val = 2000 * t.val + (j 0).val; rw [e6]; omega
    | ⟨1, _⟩ => show win1_3.index t 1 * 64 + 1 * (j 1).val = (j 1).val; rw [e7]; omega)
  refine ((congrArg (k1_pay1 (F := Ideal) (iblk1 V c 0 t) (iblk1 V c 1 t) (iblk1 V c 2 t)) hj).trans ?_).trans
    (congrArg (Cert.ReferenceIdeal.Hand.layer2 (F := Ideal) (V c main_v13) (V c main_arg5) (V c main_arg7)) hemb).symm
  exact point1 (V c main_v13) (V c main_arg5) (V c main_arg7) (iblk1 V c 0 t) (iblk1 V c 1 t) (iblk1 V c 2 t)
    ⟨(j 0).val, h0⟩ ⟨(j 1).val, h1⟩ ⟨2000 * t.val + (j 0).val, by omega⟩
    (fun k => iblk1_0_apply V c t ⟨(j 0).val, h0⟩ k ⟨2000 * t.val + (j 0).val, by omega⟩ rfl)
    (fun k => iblk1_1_apply V c t ⟨(j 0).val, h0⟩ k ⟨2000 * t.val + (j 0).val, by omega⟩ rfl)
    (fun k => iblk1_2_apply V c t k ⟨(j 1).val, h1⟩)

/-- Region 1's output array after the region: the reference's second layer of the region's entry arrays (the 25 row blocks
    tile the 50000 rows: row `i` lies in block `i / 2000`). -/
theorem final1 (c : Dev nD) : (dat1 V c).arrAt 3 cfg1.N
    = Cert.ReferenceIdeal.Hand.layer2 (F := Ideal) (V c main_v13) (V c main_arg5) (V c main_arg7) :=
  (dat1 V c).arrAt_eq_of_cover 3 _ (fun t _ => flushed1 V c t) fun i => by
    have hi0 : (i 0).val < 50000 := (i 0).isLt
    have hi1 : (i 1).val < 64 := (i 1).isLt
    have hN : cfg1.N = 25 := N_1
    obtain ⟨t, ht⟩ : ∃ t : Fin cfg1.N, t.val = (i 0).val / 2000 := ⟨⟨(i 0).val / 2000, by rw [hN]; omega⟩, rfl⟩
    refine ⟨t, flush1_3 t, ?_⟩
    obtain ⟨-, -, -, -, -, -, e6, e7⟩ := idx1 t
    show i ∈ ((View.whole main_v14).slice (win1_3.rect t)).set
    rw [View.set_slice_whole, Rect.mem_set_unit]
    intro a
    match a with
    | ⟨0, _⟩ =>
      show win1_3.index t 0 * 2000 ≤ (i 0).val ∧ (i 0).val < win1_3.index t 0 * 2000 + 2000
      rw [e6, ht]; omega
    | ⟨1, _⟩ =>
      show win1_3.index t 1 * 64 ≤ (i 1).val ∧ (i 1).val < win1_3.index t 1 * 64 + 64
      rw [e7]; omega

end Cert.KernelIdeal.Hand

end
-- ==== Proof.KernelValue.lean ====
/-
  The kernel program's result as one function of its arguments, at the ideal values: the reference's own network.

  The boundary contents of @main are followed from the launch: region 0 leaves the reference's first layer of `x`, the first
  noise and `W1` in its output array; the first stretch of host operations is the sparse product of that array (its index and
  value operands are arguments, which nothing has written); region 1 leaves the reference's second layer of that product, the
  second noise and `W2`; the second stretch is the sparse product again. The host operations of the two sparse products are
  the reference's own, kept closed.
-/
import proofs.«108097_j54271206752667_1_alg».proof.Proof.Region0
import proofs.«108097_j54271206752667_1_alg».proof.Proof.Region1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-! ## The arguments a host stretch or a later region reads are still as launched -/

theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg5 (c : Dev nD) : W1 m ρ c (Proc.devRef .tc main_arg5) = m ((c : Thread nD τ).loc main_arg5) := W1_of_ne m ρ c main_arg5 (by decide)
theorem W1_arg7 (c : Dev nD) : W1 m ρ c (Proc.devRef .tc main_arg7) = m ((c : Thread nD τ).loc main_arg7) := W1_of_ne m ρ c main_arg7 (by decide)

theorem W2_arg1 (c : Dev nD) : W2 m ρ c (Proc.devRef .tc main_arg1) = m ((c : Thread nD τ).loc main_arg1) := by
  show StableHlo.after hostOps1 (W1 m ρ c) (Proc.devRef .tc main_arg1) = _
  after_results
  exact W1_arg1 m ρ c
theorem W2_arg2 (c : Dev nD) : W2 m ρ c (Proc.devRef .tc main_arg2) = m ((c : Thread nD τ).loc main_arg2) := by
  show StableHlo.after hostOps1 (W1 m ρ c) (Proc.devRef .tc main_arg2) = _
  after_results
  exact W1_arg2 m ρ c
theorem W2_arg3 (c : Dev nD) : W2 m ρ c (Proc.devRef .tc main_arg3) = m ((c : Thread nD τ).loc main_arg3) := by
  show StableHlo.after hostOps1 (W1 m ρ c) (Proc.devRef .tc main_arg3) = _
  after_results
  exact W1_arg3 m ρ c
theorem W2_arg5 (c : Dev nD) : W2 m ρ c (Proc.devRef .tc main_arg5) = m ((c : Thread nD τ).loc main_arg5) := by
  show StableHlo.after hostOps1 (W1 m ρ c) (Proc.devRef .tc main_arg5) = _
  after_results
  exact W1_arg5 m ρ c
theorem W2_arg7 (c : Dev nD) : W2 m ρ c (Proc.devRef .tc main_arg7) = m ((c : Thread nD τ).loc main_arg7) := by
  show StableHlo.after hostOps1 (W1 m ρ c) (Proc.devRef .tc main_arg7) = _
  after_results
  exact W1_arg7 m ρ c

theorem W3_arg1 (c : Dev nD) : W3 m ρ c (Proc.devRef .tc main_arg1) = m ((c : Thread nD τ).loc main_arg1) :=
  (W3_of_ne m ρ c main_arg1 (by decide)).trans (W2_arg1 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)

/-! ## The fold, boundary by boundary -/

/-- After region 0 its output array is the reference's first layer of the launched `x`, first noise and `W1`. -/
theorem W1_v0 (c : Dev nD) : W1 m ρ c (Proc.devRef .tc main_v0)
    = Cert.ReferenceIdeal.Hand.layer1 (F := Ideal) (m ((c : Thread nD τ).loc main_arg0)) (m ((c : Thread nD τ).loc main_arg4)) (m ((c : Thread nD τ).loc main_arg6)) :=
  (W1_arr m ρ c 3).trans (final0 (V0 m ρ) c)

/-- The first host stretch is the sparse product of the array region 0 left. -/
theorem W2_v13 (c : Dev nD) : W2 m ρ c (Proc.devRef .tc main_v13)
    = Cert.ReferenceIdeal.Hand.spmm256 (F := Ideal) (m ((c : Thread nD τ).loc main_arg1)) (m ((c : Thread nD τ).loc main_arg2)) (m ((c : Thread nD τ).loc main_arg3))
        (Cert.ReferenceIdeal.Hand.layer1 (F := Ideal) (m ((c : Thread nD τ).loc main_arg0)) (m ((c : Thread nD τ).loc main_arg4)) (m ((c : Thread nD τ).loc main_arg6))) := by
  have e : W2 m ρ c (Proc.devRef .tc main_v13)
      = Cert.ReferenceIdeal.Hand.spmm256 (F := Ideal) (W1 m ρ c (Proc.devRef .tc main_arg1)) (W1 m ρ c (Proc.devRef .tc main_arg2)) (W1 m ρ c (Proc.devRef .tc main_arg3))
          (W1 m ρ c (Proc.devRef .tc main_v0)) := by
    show StableHlo.after hostOps1 (W1 m ρ c) (Proc.devRef .tc main_v13) = _
    after_results
    rfl
  rw [e, W1_arg1, W1_arg2, W1_arg3, W1_v0]

/-- After region 1 its output array is the reference's second layer of that product, the second noise and `W2`. -/
theorem W3_v14 (c : Dev nD) : W3 m ρ c (Proc.devRef .tc main_v14)
    = Cert.ReferenceIdeal.Hand.layer2 (F := Ideal)
        (Cert.ReferenceIdeal.Hand.spmm256 (F := Ideal) (m ((c : Thread nD τ).loc main_arg1)) (m ((c : Thread nD τ).loc main_arg2)) (m ((c : Thread nD τ).loc main_arg3))
          (Cert.ReferenceIdeal.Hand.layer1 (F := Ideal) (m ((c : Thread nD τ).loc main_arg0)) (m ((c : Thread nD τ).loc main_arg4)) (m ((c : Thread nD τ).loc main_arg6))))
        (m ((c : Thread nD τ).loc main_arg5)) (m ((c : Thread nD τ).loc main_arg7)) := by
  have e : W3 m ρ c (Proc.devRef .tc main_v14)
      = Cert.ReferenceIdeal.Hand.layer2 (F := Ideal) (W2 m ρ c (Proc.devRef .tc main_v13)) (W2 m ρ c (Proc.devRef .tc main_arg5)) (W2 m ρ c (Proc.devRef .tc main_arg7)) :=
    (W3_arr m ρ c 3).trans (final1 (V2 m ρ) c)
  rw [e, W2_v13, W2_arg5, W2_arg7]

/-- The second host stretch is the sparse product of the array region 1 left: the result is the reference's network of the
    launched arguments. -/
theorem W4_v27 (c : Dev nD) : W4 m ρ c (Proc.devRef .tc main_v27)
    = Cert.ReferenceIdeal.Hand.network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) := by
  have e : W4 m ρ c (Proc.devRef .tc main_v27)
      = Cert.ReferenceIdeal.Hand.spmm64 (F := Ideal) (W3 m ρ c (Proc.devRef .tc main_arg1)) (W3 m ρ c (Proc.devRef .tc main_arg2)) (W3 m ρ c (Proc.devRef .tc main_arg3))
          (W3 m ρ c (Proc.devRef .tc main_v14)) := by
    show StableHlo.after hostOps2 (W3 m ρ c) (Proc.devRef .tc main_v27) = _
    after_results
    rfl
  rw [e, W3_arg1, W3_arg2, W3_arg3, W3_v14]
  rfl

end Cert.KernelIdeal.Hand

end
-- ==== Proof.lean ====
/-
  A two-layer graph network with given dropout noise: two Pallas matrix-product kernels with the dropout fused in, each
  followed by a COO sparse product on the host, against the plain jnp network.

  At the ideal values the two programs compute one function of the arguments. Each kernel region, 25 row blocks of 2000
  rows, leaves in its output array the reference's dense layer of the arrays it is entered with: the kernel doubles a
  kept entry where the reference divides it by one half (equal on every extended real), the roundings to bf16 are the
  identity, and a matrix product into a zero accumulator is the host's product. The sparse products are the same host
  operations in both programs and are never opened. The kernel program's frames are the generated ones; the reference's
  frame is its generated run with the result dropped; nothing was rewritten by the ideal pass, so `preserves` is trivial.
-/
import proofs.«108097_j54271206752667_1_alg».proof.Defs
import proofs.«108097_j54271206752667_1_alg».proof.Proof.Gen.Kernel
import proofs.«108097_j54271206752667_1_alg».proof.Proof.Gen.Kernel.Frame
import proofs.«108097_j54271206752667_1_alg».proof.Proof.Gen.KernelIdeal
import proofs.«108097_j54271206752667_1_alg».proof.Proof.Gen.KernelIdeal.Frame
import proofs.«108097_j54271206752667_1_alg».proof.Proof.Gen.ReferenceIdeal
import proofs.«108097_j54271206752667_1_alg».proof.Proof.Gen.ReferenceIdeal.Run
import proofs.«108097_j54271206752667_1_alg».proof.Proof.Gen.Pre_finite_inputs
import proofs.«108097_j54271206752667_1_alg».proof.Proof.KernelRun
import proofs.«108097_j54271206752667_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's network of the (agreeing) arguments in their result buffers. -/
theorem algebraic : Cert.algebraic_KernelIdeal_ReferenceIdeal := by
  intro m ρ m' ρ' _ hagree
  refine ⟨fun c => Cert.ReferenceIdeal.Hand.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.W4_v27 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
